-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x64 : Shape := ⟨3, ![8, 2048, 64]⟩
abbrev S64x64 : Shape := ⟨2, ![64, 64]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩

class Facts : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048x64 : S_.BroadcastsInDim S8x2048x64 (![] : Fin 0 → Fin S8x2048x64.rank)
  reducesTo_S8x2048x64_S_d0_1_2 : S8x2048x64.ReducesTo [0, 1, 2] S_
  bcast_S_S64x64 : S_.BroadcastsInDim S64x64 (![] : Fin 0 → Fin S64x64.rank)
  reducesTo_S64x64_S_d0_1 : S64x64.ReducesTo [0, 1] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg2 : FVec F S64x64 .f32) (main_v9 : FVec F S8x2048 .f32) (main_v13 : IVec S_ 1) (main_v17 : IVec S_ 1) : IVec S_ 1 :=
  let main_v18 : IVec S_ 1 := andi main_v13 main_v17
  let main_v19 : FVec F S64x64 .f32 := Host.absf main_arg2
  let main_cst_4 : FVec F S_ .f32 := constant S_ .f32 0x7F800000#32
  let main_v20 : FVec F S64x64 .f32 := broadcastInDim S64x64 ![] bcast_S_S64x64 main_cst_4
  let main_v21 : IVec S64x64 1 := cmpf .olt main_v19 main_v20
  let main_c_5 : IVec S_ 1 := constantI S_ 1 1#1
  let main_v22 : IVec S_ 1 := (fun x v => Host.reduce IntOp.andi x v reducesTo_S64x64_S_d0_1 h_S_) main_v21 main_c_5
  let main_v23 : IVec S_ 1 := andi main_v18 main_v22
  let main_cst_6 : FVec F S_ .f32 := constant S_ .f32 0x00000000#32
  let main_v24 : FVec F S8x2048 .f32 := broadcastInDim S8x2048 ![] bcast_S_S8x2048 main_cst_6
  let main_v25 : IVec S8x2048 1 := cmpf .une main_v9 main_v24
  let main_c_7 : IVec S_ 1 := constantI S_ 1 1#1
  let main_v26 : IVec S_ 1 := (fun x v => Host.reduce IntOp.andi x v reducesTo_S8x2048_S_d0_1 h_S_) main_v25 main_c_7
  let main_v27 : IVec S_ 1 := andi main_v23 main_v26
  main_v27

def fn {F : FTy → Type} [FloatOps F] (main_arg0 : FVec F S8x2048x2048 .f32) (main_arg1 : FVec F S8x2048x64 .f32) (main_arg2 : FVec F S64x64 .f32) : IVec S_ 1 :=
  let main_v0 : IVec S2048x2048 32 := iotaInDim S2048x2048 32 0
  let main_v1 : IVec S2048x2048 32 := iotaInDim S2048x2048 32 1
  let main_c : IVec S_ 32 := constantI S_ 32 0#32
  let main_v2 : IVec S2048x2048 32 := broadcastInDim S2048x2048 ![] bcast_S_S2048x2048 main_c
  let main_v3 : IVec S2048x2048 32 := addi main_v0 main_v2
  let main_v4 : IVec S2048x2048 1 := cmpi .eq main_v3 main_v1
  let main_v5 : FVec F S2048x2048 .f32 := uitofp .f32 main_v4
  let main_v6 : FVec F S1x2048x2048 .f32 := broadcastInDim S1x2048x2048 ![1, 2] bcast_S2048x2048_S1x2048x2048_1_2 main_v5
  let main_v7 : FVec F S8x2048x2048 .f32 := broadcastInDim S8x2048x2048 ![0, 1, 2] bcast_S1x2048x2048_S8x2048x2048_0_1_2 main_v6
  let main_v8 : FVec F S8x2048x2048 .f32 := addf main_arg0 main_v7
  let main_cst : FVec F S_ .f32 := constant S_ .f32 0x00000000#32
  let main_v9 : FVec F S8x2048 .f32 := (fun x v => Host.reduceAdd x v reducesTo_S8x2048x2048_S8x2048_d2 h_S_) main_v8 main_cst
  let main_v10 : FVec F S8x2048x2048 .f32 := Host.absf main_arg0
  let main_cst_0 : FVec F S_ .f32 := constant S_ .f32 0x7F800000#32
  let main_v11 : FVec F S8x2048x2048 .f32 := broadcastInDim S8x2048x2048 ![] bcast_S_S8x2048x2048 main_cst_0
  let main_v12 : IVec S8x2048x2048 1 := cmpf .olt main_v10 main_v11
  let main_c_1 : IVec S_ 1 := constantI S_ 1 1#1
  let main_v13 : IVec S_ 1 := (fun x v => Host.reduce IntOp.andi x v reducesTo_S8x2048x2048_S_d0_1_2 h_S_) main_v12 main_c_1
  let main_v14 : FVec F S8x2048x64 .f32 := Host.absf main_arg1
  let main_cst_2 : FVec F S_ .f32 := constant S_ .f32 0x7F800000#32
  let main_v15 : FVec F S8x2048x64 .f32 := broadcastInDim S8x2048x64 ![] bcast_S_S8x2048x64 main_cst_2
  let main_v16 : IVec S8x2048x64 1 := cmpf .olt main_v14 main_v15
  let main_c_3 : IVec S_ 1 := constantI S_ 1 1#1
  let main_v17 : IVec S_ 1 := (fun x v => Host.reduce IntOp.andi x v reducesTo_S8x2048x64_S_d0_1_2 h_S_) main_v16 main_c_3
  fn_part1 (F := F) main_arg2 main_v9 main_v13 main_v17
-- ==== Kernel.lean ====
abbrev S8x2048x2048 : Shape := ⟨3, ![8, 2048, 2048]⟩
abbrev S8x2048x64 : Shape := ⟨3, ![8, 2048, 64]⟩
abbrev S64x64 : Shape := ⟨2, ![64, 64]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S1024 : Shape := ⟨1, ![1024]⟩
abbrev S1024x1 : Shape := ⟨2, ![1024, 1]⟩
abbrev S2048x64 : Shape := ⟨2, ![2048, 64]⟩
abbrev S1024x64 : Shape := ⟨2, ![1024, 64]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x64, .f32⟩
  | .hbm, ⟨2, _⟩ => ⟨S64x64, .f32⟩
  | .hbm, ⟨3, _⟩ => ⟨S8x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S64x64, .f32⟩
  | .local _ .vmem, ⟨5, _⟩ => ⟨S1x1024x64, .f32⟩
  | .local _ .vmem, ⟨6, _⟩ => ⟨S1x1024x64, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  v15
def k0_off1 (i : grid0.Coords) : Fin 3 → Nat :=
  let c0_10 : Index := 0#32
  let arg1 : BitVec 32 := BitVec.ofNat 32 (i 1).val
  let c1024_i32 : BitVec 32 := 1024#32
  let v15 : BitVec 32 := Scalar.muli arg1 c1024_i32
  let v16 : BitVec 32 := v15
  let v17 : Index := Scalar.indexCast v16
  let c0_11 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S1x1024x64 : 0 < S1x1024x64.numel
  shapeCasts_S1x1024x64_S1024x64 : S1x1024x64.ShapeCasts S1024x64
  broadcasts_S1024x1_S1024x64 : S1024x1.Broadcasts S1024x64
  inb_S1x1024x64_S1x1024x64_0_0_0 : ∀ a, (![0, 0, 0] : Fin 3 → Nat) a + S1x1024x64.size a ≤ S1x1024x64.size a
  shapeCasts_S1024x64_S1x1024x64 : S1024x64.ShapeCasts S1x1024x64
  dot_S2048x64_S64x64_S2048x64_1_0_0_1_n_n_wf : DotDims.WF S2048x64 S64x64 S2048x64 [1] [0] [0] [1] [] []
  dot_S1024x2048_S2048x64_S1024x64_1_0_0_1_n_n_wf : DotDims.WF S1024x2048 S2048x64 S1024x64 [1] [0] [0] [1] [] []
  dot_S1024x64_S64x64_S1024x64_1_0_0_1_n_n_wf : DotDims.WF S1024x64 S64x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S8x2048x64.size a
  hwx0_3 : ∀ i : grid0.Coords, EltTy.bits .f32 = 32 ∨ (Rect.block (s := S8x2048x64) S1x1024x64.size (cc0_transform_3 i) (hinb0_3 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x64 : Shape := ⟨3, ![8, 2048, 64]⟩
abbrev S64x64 : Shape := ⟨2, ![64, 64]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x64, .f32⟩
  | .hbm, ⟨2, _⟩ => ⟨S64x64, .f32⟩
  | .hbm, ⟨3, _⟩ => ⟨S2048x2048, .i32⟩
  | .hbm, ⟨4, _⟩ => ⟨S2048x2048, .i32⟩
  | .hbm, ⟨5, _⟩ => ⟨S_, .i32⟩
  | .hbm, ⟨6, _⟩ => ⟨S2048x2048, .i32⟩
  | .hbm, ⟨7, _⟩ => ⟨S2048x2048, .i32⟩
  | .hbm, ⟨8, _⟩ => ⟨S2048x2048, .i1⟩
  | .hbm, ⟨9, _⟩ => ⟨S2048x2048, .f32⟩
  | .hbm, ⟨10, _⟩ => ⟨S1x2048x2048, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S8x2048x64, .f32⟩
  | .hbm, ⟨19, _⟩ => ⟨S8x2048x64, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x2048_S8x2048x64_S8x2048x64_2_1_1_2_0_0_wf : DotDims.WF S8x2048x2048 S8x2048x64 S8x2048x64 [2] [1] [1] [2] [0] [0]
  dot_S8x2048x64_S64x64_S8x2048x64_2_0_01_1_n_n_wf : DotDims.WF S8x2048x64 S64x64 S8x2048x64 [2] [0] [0, 1] [1] [] []

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf

class Facts : Prop extends Facts₀ where

variable [Facts]
-- ==== Proof.GcnAlgebra.lean ====
/-
  Graph convolution with self loops, row-normalised: the two arrangements of
      out[b, n, o] = (1 / deg[b, n]) * sum_m (A[b, n, m] + [n = m]) * (X W)[b, m, o],   deg[b, n] = sum_m (A[b, n, m] + [n = m]),
  as whole-array functions on the extended reals, and the law that joins them.

  * `gcnRowFirst`: each entry of A + I is divided by its row's degree first, the quotient matrix is multiplied by X, and
    that product by W (normalise, aggregate, project).
  * `gcnDivLast`: A is multiplied by X W, the row of X W that the identity selects is added, and the sum is divided by
    (row sum of A) + 1 (aggregate the projected features, add the self loop, normalise last).

  On real inputs with a nonzero degree both are the same real number: division by the degree is multiplication by its
  reciprocal, a real factor moves across finite sums, the identity's row picks one term out of a sum, and the order of the
  two summations is immaterial. The degree's being nonzero is needed: a quotient by zero is an infinity or the junk value
  on the extended reals, and the two arrangements then disagree.
-/
import Idealize.ShloMosaic.PureOps.Ideal
import Idealize.ShloMosaic.Lib.ValueIdx

noncomputable section

namespace Cert.Gcn

open Idealize.ShloMosaic Idealize.ShloMosaic.ValueIdx

/-- A finite sum of reals, each read as an extended real, is the real sum read as an extended real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert k s hk ih => rw [Finset.sum_insert hk, Finset.sum_insert hk, ih, EReal.coe_add]

/-- The identity matrix's entry, as an extended real. -/
def eyeE {M : Type} [DecidableEq M] (n m : M) : EReal := if n = m then 1 else 0

theorem eyeE_coe {M : Type} [DecidableEq M] (n m : M) : eyeE n m = (((if n = m then 1 else 0 : ℝ)) : EReal) := by
  unfold eyeE; split <;> simp

/-- The law over the reals: normalising the rows of A + I before the two products is normalising after them. -/
theorem rowFirst_eq_divLast_real {M Fd : Type} [Fintype M] [DecidableEq M] [Fintype Fd]
    (a : M → ℝ) (x : M → Fd → ℝ) (w : Fd → ℝ) (n : M) :
    (∑ f, (∑ m, ((a m + (if n = m then 1 else 0)) * (1 / ∑ k, (a k + (if n = k then 1 else 0)))) * x m f) * w f)
      = ((∑ m, a m * ∑ f, x m f * w f) + ∑ f, x n f * w f) * (1 / ((∑ m, a m) + 1)) := by
  have hdeg : (∑ k, (a k + (if n = k then (1 : ℝ) else 0))) = (∑ m, a m) + 1 := by
    rw [Finset.sum_add_distrib, Finset.sum_ite_eq]; simp
  rw [hdeg]
  generalize (1 / ((∑ m, a m) + 1) : ℝ) = r
  have hself : (∑ f, x n f * w f) = ∑ m, (if n = m then (1 : ℝ) else 0) * ∑ f, x m f * w f := by
    simp [ite_mul, Finset.sum_ite_eq]
  rw [hself, ← Finset.sum_add_distrib, Finset.sum_mul]
  simp only [Finset.sum_mul]
  rw [Finset.sum_comm]
  refine Finset.sum_congr rfl fun m _ => ?_
  rw [← add_mul, Finset.mul_sum, Finset.sum_mul]
  refine Finset.sum_congr rfl fun f _ => ?_
  ring

/-- The same law on the extended reals, for real inputs and a nonzero degree: the quotients are taken by `Ideal.div`,
    which off zero is the product with the reciprocal, and every sum and product of reals stays real. -/
theorem rowFirst_eq_divLast {M Fd : Type} [Fintype M] [DecidableEq M] [Fintype Fd]
    (a : M → ℝ) (x : M → Fd → ℝ) (w : Fd → ℝ) (n : M)
    (hdeg : (0 : EReal) + ∑ k, (((a k : ℝ) : EReal) + eyeE n k) ≠ 0) :
    (∑ f, (∑ m, Ideal.div (((a m : ℝ) : EReal) + eyeE n m) ((0 : EReal) + ∑ k, (((a k : ℝ) : EReal) + eyeE n k)) * ((x m f : ℝ) : EReal)) * ((w f : ℝ) : EReal))
      = Ideal.div ((∑ m, ((a m : ℝ) : EReal) * ∑ f, ((x m f : ℝ) : EReal) * ((w f : ℝ) : EReal)) + ∑ f, ((x n f : ℝ) : EReal) * ((w f : ℝ) : EReal))
          ((∑ m, ((a m : ℝ) : EReal)) + 1) := by
  have hD : (0 : EReal) + ∑ k, (((a k : ℝ) : EReal) + eyeE n k) = ((∑ k, (a k + (if n = k then 1 else 0)) : ℝ) : EReal) := by
    rw [zero_add, ← coe_sum]
    exact Finset.sum_congr rfl fun k _ => by rw [eyeE_coe, EReal.coe_add]
  rw [hD] at hdeg ⊢
  have hD0 : (∑ k, (a k + (if n = k then 1 else 0)) : ℝ) ≠ 0 := fun h => hdeg (by rw [h]; rfl)
  have hS : (∑ k, (a k + (if n = k then (1 : ℝ) else 0))) = (∑ m, a m) + 1 := by
    rw [Finset.sum_add_distrib, Finset.sum_ite_eq]; simp
  have hS0 : ((∑ m, a m) + 1 : ℝ) ≠ 0 := hS ▸ hD0
  have hR : (∑ m, ((a m : ℝ) : EReal)) + 1 = (((∑ m, a m) + 1 : ℝ) : EReal) := by
    rw [coe_sum, EReal.coe_add, EReal.coe_one]
  rw [hR, Ideal.div_coe hS0]
  simp only [Ideal.div_coe hD0, eyeE_coe, ← EReal.coe_add, ← EReal.coe_mul, coe_sum]
  exact congrArg _ (rowFirst_eq_divLast_real a x w n)

/-! ## The two arrangements entry by entry, over the literal extents (8 graphs, 2048 nodes, 64 features in, 64 out) -/

abbrev SA : Shape := ⟨3, ![8, 2048, 2048]⟩
abbrev SX : Shape := ⟨3, ![8, 2048, 64]⟩
abbrev SW : Shape := ⟨2, ![64, 64]⟩

/-- The degree of node `n` of graph `b` in A + I: zero plus the sum along the row. -/
def degAt (A : SA.Idx → EReal) (b : Fin 8) (n : Fin 2048) : EReal :=
  (0 : EReal) + ∑ k : Fin 2048, (A (ix3 b n k) + eyeE n k)

/-- Normalise the rows of A + I, aggregate the features, project: `((A + I) / deg) X W` at `(b, n, o)`. -/
def rowFirstAt (A : SA.Idx → EReal) (X : SX.Idx → EReal) (W : SW.Idx → EReal) (b : Fin 8) (n : Fin 2048) (o : Fin 64) : EReal :=
  ∑ f : Fin 64, (∑ m : Fin 2048, Ideal.div (A (ix3 b n m) + eyeE n m) (degAt A b n) * X (ix3 b m f)) * W (ix2 f o)

/-- Aggregate the projected features, add the node's own, normalise last: `(A (X W) + X W) / (rowsum A + 1)` at `(b, n, o)`. -/
def divLastAt (A : SA.Idx → EReal) (X : SX.Idx → EReal) (W : SW.Idx → EReal) (b : Fin 8) (n : Fin 2048) (o : Fin 64) : EReal :=
  Ideal.div ((∑ m : Fin 2048, A (ix3 b n m) * ∑ f : Fin 64, X (ix3 b m f) * W (ix2 f o)) + ∑ f : Fin 64, X (ix3 b n f) * W (ix2 f o))
    ((∑ m : Fin 2048, A (ix3 b n m)) + 1)

/-- On finite inputs, at a node whose degree is nonzero, the two arrangements give one number. -/
theorem rowFirstAt_eq_divLastAt (A : SA.Idx → EReal) (X : SX.Idx → EReal) (W : SW.Idx → EReal)
    (hA : ∀ i, A i ≠ ⊤ ∧ A i ≠ ⊥) (hX : ∀ i, X i ≠ ⊤ ∧ X i ≠ ⊥) (hW : ∀ i, W i ≠ ⊤ ∧ W i ≠ ⊥)
    (b : Fin 8) (n : Fin 2048) (o : Fin 64) (hdeg : degAt A b n ≠ 0) :
    rowFirstAt A X W b n o = divLastAt A X W b n o := by
  obtain ⟨a, ha⟩ : ∃ a : Fin 2048 → ℝ, ∀ m, A (ix3 b n m) = ((a m : ℝ) : EReal) :=
    ⟨fun m => (A (ix3 b n m)).toReal, fun m => (EReal.coe_toReal (hA _).1 (hA _).2).symm⟩
  obtain ⟨x, hx⟩ : ∃ x : Fin 2048 → Fin 64 → ℝ, ∀ m f, X (ix3 b m f) = ((x m f : ℝ) : EReal) :=
    ⟨fun m f => (X (ix3 b m f)).toReal, fun m f => (EReal.coe_toReal (hX _).1 (hX _).2).symm⟩
  obtain ⟨w, hw⟩ : ∃ w : Fin 64 → ℝ, ∀ f, W (ix2 f o) = ((w f : ℝ) : EReal) :=
    ⟨fun f => (W (ix2 f o)).toReal, fun f => (EReal.coe_toReal (hW _).1 (hW _).2).symm⟩
  unfold degAt at hdeg
  unfold rowFirstAt divLastAt degAt
  simp only [ha, hx, hw] at hdeg ⊢
  exact rowFirst_eq_divLast a x w n hdeg

end Cert.Gcn

end
-- ==== Proof.GcnReference.lean ====
/-
  The reference program read entry by entry at the ideal instance: its result array is `rowFirstAt` — each entry of A + I
  divided by its row's degree, the quotient matrix times X, that product times W.

  Stage by stage: the identity matrix is the word compare `row + 0 = column` of two iotas converted to a float, so its
  entry at (n, m) is 1 when n = m and 0 otherwise (two indices below 2048 are equal as 32-bit words exactly when they
  are equal); broadcast over the batch and added to A it gives A + I; the degree is zero plus the sum of a row; the
  quotient divides entry (b, n, m) by the degree of (b, n); the two contractions are plain sums over m and over f.
-/
import proofs.«412337_j14216341750332_3_alg».proof.Proof.Gen.ReferenceIdeal.Read
import proofs.«412337_j14216341750332_3_alg».proof.Proof.GcnAlgebra

noncomputable section

namespace Cert.Gcn.Ref

open Idealize.ShloMosaic Idealize.ShloMosaic.ValueIdx Cert.Gcn
open Cert.ReferenceIdeal Cert.ReferenceIdeal.Read

variable [Cert.ReferenceIdeal.Facts]

/-- The identity's entry as the reference computes it: the compare of the row's word (plus zero) with the column's, read unsigned. -/
theorem eye_word (n m : Fin 2048) :
    (FloatOps.uitofp (F := Ideal) .f32 (IntOp.cmpi .eq (IntOp.addi (BitVec.ofNat 32 n.val) 0#32) (BitVec.ofNat 32 m.val)) : EReal)
      = eyeE n m := by
  unfold eyeE IntOp.addi
  rw [BitVec.add_zero]
  by_cases h : n = m
  · subst h
    rw [if_pos rfl]
    show (((IntOp.cmpi .eq (BitVec.ofNat 32 n.val) (BitVec.ofNat 32 n.val)).toNat : ℝ) : EReal) = 1
    simp [IntOp.cmpi]
  · rw [if_neg h]
    have hne : ¬ (BitVec.ofNat 32 n.val = BitVec.ofNat 32 m.val) := by
      intro e
      apply h
      apply Fin.ext
      have e' := congrArg BitVec.toNat e
      simp only [BitVec.toNat_ofNat] at e'
      have hn := n.isLt
      have hm := m.isLt
      omega
    show (((IntOp.cmpi .eq (BitVec.ofNat 32 n.val) (BitVec.ofNat 32 m.val)).toNat : ℝ) : EReal) = 0
    simp [IntOp.cmpi, hne]

/-- A + I at (b, n, m). -/
theorem selfLoops_at (A : SA.Idx → EReal) (b : Fin 8) (n m : Fin 2048) :
    val_main_v8 (F := Ideal) A (ix3 b n m) = A (ix3 b n m) + eyeE n m := by
  rw [val_main_v8_apply, val_main_v7_apply, val_main_v6_apply, val_main_v5_apply, val_main_v4_apply, val_main_v3_apply,
    val_main_v0_apply, val_main_v2_apply, val_main_c_apply, val_main_v1_apply]
  exact congrArg (A (ix3 b n m) + ·) (eye_word n m)

/-- The degree of node n of graph b. -/
theorem degree_at (A : SA.Idx → EReal) (b : Fin 8) (n : Fin 2048) :
    val_main_v9 (F := Ideal) A (ix2 b n) = degAt A b n := by
  rw [val_main_v9_apply]
  unfold degAt
  refine congrArg₂ (· + ·) ?_ (Finset.sum_congr rfl fun k _ => ?_)
  · rw [val_main_cst_apply]; exact Ideal.ofBits_zero_f32
  · rw [show idx_main_v9 (ix2 b n) k = ix3 b n k from funext fun a => Fin.ext (by match a with | ⟨0, _⟩ => rfl | ⟨1, _⟩ => rfl | ⟨2, _⟩ => rfl)]
    exact selfLoops_at A b n k

/-- The row-normalised entry (b, n, m). -/
theorem normalised_at (A : SA.Idx → EReal) (b : Fin 8) (n m : Fin 2048) :
    val_main_v12 (F := Ideal) A (ix3 b n m) = Ideal.div (A (ix3 b n m) + eyeE n m) (degAt A b n) := by
  rw [val_main_v12_apply, val_main_v11_apply, val_main_v10_apply, selfLoops_at,
    show idx_main_v10 (idx_main_v11 (ix3 b n m)) = ix2 b n from funext fun a => Fin.ext (by match a with | ⟨0, _⟩ => rfl | ⟨1, _⟩ => rfl),
    degree_at]
  rfl

/-- The reference's result at (b, n, o). -/
theorem result_at (A : SA.Idx → EReal) (X : SX.Idx → EReal) (W : SW.Idx → EReal) (b : Fin 8) (n : Fin 2048) (o : Fin 64) :
    val_main_v14 (F := Ideal) A X W (ix3 b n o) = rowFirstAt A X W b n o := by
  unfold rowFirstAt
  rw [val_main_v14_apply]
  refine Finset.sum_congr rfl fun f _ => ?_
  rw [show lidx_main_v14 (ix3 b n o) f = ix3 b n f from funext fun a => Fin.ext (by match a with | ⟨0, _⟩ => rfl | ⟨1, _⟩ => rfl | ⟨2, _⟩ => rfl),
    show ridx_main_v14 (ix3 b n o) f = ix2 f o from funext fun a => Fin.ext (by match a with | ⟨0, _⟩ => rfl | ⟨1, _⟩ => rfl),
    val_main_v13_apply]
  refine congrArg (· * W (ix2 f o)) (Finset.sum_congr rfl fun m _ => ?_)
  rw [show lidx_main_v13 (ix3 b n f) m = ix3 b n m from funext fun a => Fin.ext (by match a with | ⟨0, _⟩ => rfl | ⟨1, _⟩ => rfl | ⟨2, _⟩ => rfl),
    show ridx_main_v13 (ix3 b n f) m = ix3 b m f from funext fun a => Fin.ext (by match a with | ⟨0, _⟩ => rfl | ⟨1, _⟩ => rfl | ⟨2, _⟩ => rfl),
    normalised_at]

end Cert.Gcn.Ref

end
-- ==== Proof.GcnPre.lean ====
/-
  What the precondition says of the inputs, read at the ideal instance: every entry of A, X and W is a real number
  (its absolute value is below +infinity), and every node's degree in A + I — the reference's own divisor, zero plus the
  row sum — is not zero.

  The printed predicate is a conjunction of four `all`s; each `all` over an array gives its element fact at every index;
  `|x| < +inf` excludes both infinities; `deg != 0` against the zero word is `deg ≠ 0`.
-/
import proofs.«412337_j14216341750332_3_alg».proof.Proof.Gen.Pre_finite_inputs
import proofs.«412337_j14216341750332_3_alg».proof.Proof.GcnReference
import Idealize.ShloMosaic.Lib.ReduceAll
import Idealize.ShloMosaic.Lib.Affine
import Idealize.ShloMosaic.PureOps.Ideal.Laws

noncomputable section

namespace Cert.Gcn.Pre

open Idealize.ShloMosaic Idealize.ShloMosaic.ValueIdx Cert.Gcn

variable [Cert.Pre_finite_inputs.Facts] [Cert.ReferenceIdeal.Facts]

instance : Subsingleton Cert.Pre_finite_inputs.S_.Idx := ⟨fun a b => funext fun d => d.elim0⟩

/-- An extended real whose absolute value is below the +infinity word is neither infinity. -/
theorem finite_of_abs_lt (x : EReal) (h : Ideal.cmp .olt (max x (-x)) (Ideal.ofBits .f32 0x7F800000#32) = 1#1) :
    x ≠ ⊤ ∧ x ≠ ⊥ := by
  have hinf : Ideal.ofBits .f32 0x7F800000#32 = ⊤ := by simp [Ideal.ofBits, Ideal.ieee]
  rw [hinf] at h
  unfold Ideal.cmp at h
  have hlt : max x (-x) < ⊤ := by
    by_contra hn
    simp [hn] at h
  constructor
  · rintro rfl; simp at hlt
  · rintro rfl; simp at hlt

/-- A word compare `x != 0.0` that is true says `x ≠ 0`. -/
theorem ne_zero_of_une (x : EReal) (h : Ideal.cmp .une x (Ideal.ofBits .f32 0x00000000#32) = 1#1) : x ≠ 0 := by
  rw [Ideal.ofBits_zero_f32] at h
  unfold Ideal.cmp at h
  intro hx
  simp [hx] at h

/-- The precondition, decoded. -/
theorem decode (A : SA.Idx → EReal) (X : SX.Idx → EReal) (W : SW.Idx → EReal)
    (h : Cert.Pre_finite_inputs.fn (F := Ideal) A X W = fun _ => 1#1) :
    (∀ i, A i ≠ ⊤ ∧ A i ≠ ⊥) ∧ (∀ i, X i ≠ ⊤ ∧ X i ≠ ⊥) ∧ (∀ i, W i ≠ ⊤ ∧ W i ≠ ⊥)
      ∧ ∀ (b : Fin 8) (n : Fin 2048), degAt A b n ≠ 0 := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun b n => ?_⟩
  · exact finite_of_abs_lt (A i) (Host.reduce_andi_all _ _ _ _ _ h1 i)
  · exact finite_of_abs_lt (X i) (Host.reduce_andi_all _ _ _ _ _ h2 i)
  · exact finite_of_abs_lt (W i) (Host.reduce_andi_all _ _ _ _ _ h3 i)
  · have hd := Host.reduce_andi_all _ _ _ _ _ h4 (ix2 b n)
    rw [← Ref.degree_at A b n]
    exact ne_zero_of_une _ hd

end Cert.Gcn.Pre

end
-- ==== Proof.GcnKernelBody.lean ====
/-
  The kernel's body as a value. At one grid point the body stores ONE block: the payload of four loads — the (1024, 2048)
  block of A, the whole (2048, 64) block of X for the graph, W, and the 1024 rows of X at the point's own row offset —

      out[r, o] = ( sum_m a[r, m] * (sum_f x[m, f] * w[f, o])  +  sum_f xrows[r, f] * w[f, o] ) / ( (sum_m a[r, m]) + 1 ).

  The three matrix products are plain row-by-column contractions into a zero accumulator, the row sum is a lane
  reduction, the casts to the narrow format are the identity on the extended reals, and the shape casts and the
  column broadcast only re-index.
-/
import proofs.«412337_j14216341750332_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.Gcn.KBody

open Idealize.ShloMosaic Idealize.ShloMosaic.TcCoe Idealize.SL.Sem Idealize.ShloMosaic.ValueIdx
open Cert.KernelIdeal Cert.KernelIdeal.Gen

/-! ## Layout and contraction lemmas the payload needs, over literal coordinates -/

section Layout
variable {α : Type}

/-- A vector `[a]` cast to a column `[a, 1]` reads, at `(i, z)`, the vector at `i`. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A row-by-column product into the zero accumulator, at `(r, o)`: the sum over the shared axis. -/
theorem matmul_plain_apply {M K N : Nat} {φ₁ φ₂ : FTy} (lhs : FVec Ideal ⟨2, ![M, K]⟩ φ₁) (rhs : FVec Ideal ⟨2, ![K, N]⟩ φ₂)
    (r : Fin M) (o : Fin N) :
    FloatOps.matmul (DotDims.plain M K N) none lhs rhs (constant ⟨2, ![M, N]⟩ .f32 0x00000000#32) (ix2 r o)
      = ∑ j : Fin K, lhs (ix2 r j) * rhs (ix2 j o) := by
  rw [Ideal.matmul_constant_zero_apply, ← Equiv.sum_comp (contrEquiv1 (DotDims.plain M K N) K rfl rfl).symm]
  refine Finset.sum_congr rfl fun j _ => ?_
  have hj := contrEquiv1_symm_val (DotDims.plain M K N) K rfl rfl j
  have el : (DotDims.plain M K N).lhsIdx (ix2 r o) ((contrEquiv1 (DotDims.plain M K N) K rfl rfl).symm j) = ix2 r j :=
    funext fun a => Fin.ext (by
      match a with
      | ⟨0, _⟩ => rfl
      | ⟨1, _⟩ => exact ((DotDims.plain M K N).lhsIdx_val_of_single rfl _ _).trans hj)
  have er : (DotDims.plain M K N).rhsIdx (ix2 r o) ((contrEquiv1 (DotDims.plain M K N) K rfl rfl).symm j) = ix2 j o :=
    funext fun a => Fin.ext (by
      match a with
      | ⟨0, _⟩ => exact ((DotDims.plain M K N).rhsIdx_val_of_single rfl _ _).trans hj
      | ⟨1, _⟩ => rfl)
  rw [el, er]

/-- The lane reduction of a `[1024, 2048]` block along its rows, at row `r`: the sum of the row. -/
theorem rowSum_apply (src : FVec Ideal S1024x2048 .f32) (h : S1024x2048.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ k : Fin 2048, src (ix2 r k) :=
  (Ideal.multiReduction_add_single src _ h hφ hacc (ix1 r)).trans
    (Finset.sum_congr rfl fun k _ => congrArg src (funext fun a => Fin.ext (by match a with | ⟨0, _⟩ => rfl | ⟨1, _⟩ => rfl)))

/-- The word of 1.0 is the real one. -/
theorem one_word : Ideal.ofBits .f32 0x3F800000#32 = 1 := by
  simp [Ideal.ofBits, Ideal.ieee]
  rw [← EReal.coe_mul]
  norm_num

/-! ## The payload at an entry -/

variable [Cert.KernelIdeal.Facts]

/-- The stored block at `(u, r, o)` from the four loaded blocks. -/
theorem payload_at (v0 : FVec Ideal S1x1024x2048 .f32) (v7 : FVec Ideal S64x64 .f32) (v9 : FVec Ideal S1x2048x64 .f32)
    (v18 : FVec Ideal S1x1024x64 .f32) (u : Fin 1) (r : Fin 1024) (o : Fin 64) :
    k0_pay1 (F := Ideal) v0 v7 v9 v18 (ix3 u r o)
      = Ideal.div ((∑ m : Fin 2048, v0 (ix3 (0 : Fin 1) r m) * ∑ f : Fin 64, v9 (ix3 (0 : Fin 1) m f) * v7 (ix2 f o))
            + ∑ f : Fin 64, v18 (ix3 (0 : Fin 1) r f) * v7 (ix2 f o))
          ((∑ m : Fin 2048, v0 (ix3 (0 : Fin 1) r m)) + 1) := by
  unfold k0_pay1
  refine (shapeCast_ab_1ab_apply _ _ u r o).trans ?_
  refine (divf_apply _ _ _).trans ?_
  refine congrArg₂ Ideal.div ?_ ?_
  · refine (addf_apply _ _ _).trans ?_
    refine congrArg₂ (· + ·) ?_ ?_
    · refine (matmul_plain_apply _ _ r o).trans (Finset.sum_congr rfl fun m _ => ?_)
      refine congrArg₂ (· * ·) ?_ ?_
      · exact shapeCast_1ab_ab_apply v0 _ r m
      · exact (matmul_plain_apply _ _ m o).trans
          (Finset.sum_congr rfl fun f _ => congrArg₂ (· * ·) (shapeCast_1ab_ab_apply v9 _ m f) rfl)
    · exact (matmul_plain_apply _ _ r o).trans
        (Finset.sum_congr rfl fun f _ => congrArg₂ (· * ·) (shapeCast_1ab_ab_apply v18 _ r f) rfl)
  · refine (broadcastTo_a1_ab_apply _ _ r o).trans ?_
    refine (addf_apply _ _ _).trans ?_
    refine congrArg₂ (· + ·) ?_ ?_
    · refine (shapeCast_a_a1_apply _ _ r 0).trans ?_
      exact (rowSum_apply _ _ _ _ r).trans (Finset.sum_congr rfl fun m _ => shapeCast_1ab_ab_apply v0 _ r m)
    · exact one_word

end Cert.Gcn.KBody

end
-- ==== Proof.GcnKernelValue.lean ====
/-
  From blocks to the array. The grid has 8 x 2 points; point (b, q) stages rows 1024 q .. 1024 q + 1023 of graph b's
  adjacency block, the whole feature block of graph b and W, loads again the 1024 rows of the feature block at offset
  1024 q, and writes back rows 1024 q .. of graph b's result. So what it writes back is the block of ONE whole-array
  function, `divLastAt` of the argument arrays at (b, 1024 q + r, o), and the sixteen blocks tile the result array.
-/
import proofs.«412337_j14216341750332_3_alg».proof.Proof.Gen.KernelIdeal.Value
import proofs.«412337_j14216341750332_3_alg».proof.Proof.GcnKernelBody
import proofs.«412337_j14216341750332_3_alg».proof.Proof.GcnAlgebra

noncomputable section

namespace Cert.Gcn.KValue

open Idealize.ShloMosaic Idealize.ShloMosaic.TcCoe Idealize.SL.Sem Idealize.ShloMosaic.ValueIdx
open Idealize.ShloMosaic.Pipeline (Dat)
open Cert.KernelIdeal Cert.KernelIdeal.Gen Cert.Gcn

theorem hz3 : (![0, 0, 0] : Fin 3 → Nat) = fun _ => 0 := funext fun a => by fin_cases a <;> rfl
theorem hz2 : (![0, 0] : Fin 2 → Nat) = fun _ => 0 := funext fun a => by fin_cases a <;> rfl

section Piece
variable {F : FTy → Type} [FloatOps F]

/-- What the body leaves in the output's staging buffer: its one covering store's payload, of the three whole loads
    and the load of the feature block's rows at the point's offset. -/
theorem out_eq (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S64x64 .f32) (h4 : a4.IsWhole)
    (a5 : Memref sig .tc .vmem S1x1024x64 .f32) (h5 : a5.IsWhole)
    (x0 : Vec F S1x1024x2048 .f32) (x1 : Vec F S1x2048x64 .f32) (x2 : Vec F S64x64 .f32) :
    out0_A_3 c i a2 h2 a3 h3 a4 h4 a5 h5 x0 x1 x2
      = k0_pay1 x0 x2 x1 (View.ld x1 (Rect.unit (s := S1x2048x64) (k0_off1 i) S1x1024x64.size (k0_off1_inb i))) := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero hz3]
  simp only [View.readAt_eq_ld, h2.read_unread, h3.read_unread, h4.read_unread, View.ld_unit_zero (S := S1x1024x2048) hz3,
    View.ld_unit_zero (S := S1x2048x64) hz3, View.ld_unit_zero (S := S64x64) hz2]

end Piece

/-! ## The index maps, decided over the sixteen points -/

/-- The adjacency and result windows move together (graph, row block); the feature window follows the graph only; W stays;
    the body's own row offset into the feature block is the result's row block times 1024. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) ≤ 7 ∧ win0_3.index t (1 : Fin 3) ≤ 1 ∧ win0_3.index t (2 : Fin 3) = 0
    ∧ k0_off1 (grid0.coords t) (0 : Fin 3) = 0 ∧ k0_off1 (grid0.coords t) (1 : Fin 3) = win0_3.index t (1 : Fin 3) * 1024
    ∧ k0_off1 (grid0.coords t) (2 : Fin 3) = 0 :=
  (by decide +kernel : ∀ t : Fin grid0.N, _)

/-- Every (graph, row block) is some point's. -/
theorem idx_onto : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-! ## One point's block, over literal coordinates -/

/-- Row `r` of the `q`-th block of 1024 rows. -/
def rowOf (q : Fin 2) (r : Fin 1024) : Fin 2048 := ⟨q.val * 1024 + r.val, by have := q.isLt; have := r.isLt; omega⟩

/-- If the four loaded blocks are the blocks of A, X, W that point (b, q) stages, the stored block is `divLastAt` at
    (b, 1024 q + r, o). -/
theorem point_value (A : SA.Idx → EReal) (X : SX.Idx → EReal) (W : SW.Idx → EReal) (b : Fin 8) (q : Fin 2)
    (v0 : FVec Ideal S1x1024x2048 .f32) (v7 : FVec Ideal S64x64 .f32) (v9 : FVec Ideal S1x2048x64 .f32) (v18 : FVec Ideal S1x1024x64 .f32)
    (h0 : ∀ (r : Fin 1024) (k : Fin 2048), v0 (ix3 (0 : Fin 1) r k) = A (ix3 b (rowOf q r) k))
    (h7 : ∀ (f o : Fin 64), v7 (ix2 f o) = W (ix2 f o))
    (h9 : ∀ (k : Fin 2048) (f : Fin 64), v9 (ix3 (0 : Fin 1) k f) = X (ix3 b k f))
    (h18 : ∀ (r : Fin 1024) (f : Fin 64), v18 (ix3 (0 : Fin 1) r f) = X (ix3 b (rowOf q r) f))
    (y : S1x1024x64.Idx) :
    k0_pay1 (F := Ideal) v0 v7 v9 v18 y = divLastAt A X W b (rowOf q (y 1)) (y 2) := by
  obtain ⟨u, r, o, rfl⟩ : ∃ (u : Fin 1) (r : Fin 1024) (o : Fin 64), y = ix3 u r o := ⟨y 0, y 1, y 2, eq_ix3 y⟩
  show _ = divLastAt A X W b (rowOf q r) o
  rw [KBody.payload_at]
  unfold divLastAt
  simp only [h0, h7, h9, h18]

/-! ## The array after the run -/

variable (m : (ℓ : Loc nD τ sig) → Buf (Elt Ideal) ℓ)

/-- The kernel's result array: `divLastAt` of the three argument arrays, entry by entry. -/
def result (c : Dev nD) : S8x2048x64.Idx → EReal := fun j =>
  divLastAt (m ((c : Thread nD τ).loc main_arg0)) (m ((c : Thread nD τ).loc main_arg1)) (m ((c : Thread nD τ).loc main_arg2)) (j 0) (j 1) (j 2)

/-- What point `t` writes back is block `t` of `result`. -/
theorem flushed_eq (c : Dev nD) (t : Fin cfg0.N) :
    (dats m 0 c).flushed 3 t = ((cfg0.win 3).blk t).view.read (Elt Ideal) (result m c) := by
  rw [Value.flushed3_A, out_eq]
  obtain ⟨e00, e01, e02, e10, e11, e12, e20, e21, b7, q1, e32, o0, o1, o2⟩ := idx_facts t
  funext j
  have hj0 : (j 0).val < 1 := (j 0).isLt
  have hj1 : (j 1).val < 1024 := (j 1).isLt
  have hj2 : (j 2).val < 64 := (j 2).isLt
  show k0_pay1 (F := Ideal) (iblk m c 0 t) (iblk m c 2 t) (iblk m c 1 t)
      (View.ld (iblk m c 1 t) (Rect.unit (s := S1x2048x64) (k0_off1 (grid0.coords t)) S1x1024x64.size (k0_off1_inb (grid0.coords t)))) j
    = result m c (((cfg0.win 3).blk t).view.emb j)
  refine (point_value (m ((c : Thread nD τ).loc main_arg0)) (m ((c : Thread nD τ).loc main_arg1)) (m ((c : Thread nD τ).loc main_arg2))
    ⟨win0_3.index t (0 : Fin 3), by omega⟩ ⟨win0_3.index t (1 : Fin 3), by omega⟩ _ _ _ _ ?_ ?_ ?_ ?_ j).trans ?_
  · intro r k
    show V m c main_arg0 (((cfg0.win 0).blk t).view.emb (ix3 (0 : Fin 1) r k)) = V m c main_arg0 (ix3 _ _ k)
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = win0_3.index t (1 : Fin 3) * 1024 + r.val; omega
    | ⟨2, _⟩ => show win0_0.index t (2 : Fin 3) * 2048 + 1 * k.val = k.val; omega
  · intro f o
    show V m c main_arg2 (((cfg0.win 2).blk t).view.emb (ix2 f o)) = V m c main_arg2 (ix2 f o)
    refine congrArg (V m c main_arg2) (funext fun a => Fin.ext ?_)
    match a with
    | ⟨0, _⟩ => show win0_2.index t (0 : Fin 2) * 64 + 1 * f.val = f.val; omega
    | ⟨1, _⟩ => show win0_2.index t (1 : Fin 2) * 64 + 1 * o.val = o.val; omega
  · intro k f
    show V m c main_arg1 (((cfg0.win 1).blk t).view.emb (ix3 (0 : Fin 1) k f)) = V m c main_arg1 (ix3 _ k f)
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * k.val = k.val; omega
    | ⟨2, _⟩ => show win0_1.index t (2 : Fin 3) * 64 + 1 * f.val = f.val; omega
  · intro r f
    show V m c main_arg1 (((cfg0.win 1).blk t).view.emb
        ((Rect.unit (s := S1x2048x64) (k0_off1 (grid0.coords t)) S1x1024x64.size (k0_off1_inb (grid0.coords t))).idx (ix3 (0 : Fin 1) r f)))
      = V m c main_arg1 (ix3 _ _ f)
    refine congrArg (V m c main_arg1) (funext fun a => Fin.ext ?_)
    match a with
    | ⟨0, _⟩ => show win0_1.index t (0 : Fin 3) * 1 + 1 * (k0_off1 (grid0.coords t) (0 : Fin 3) + 1 * 0) = win0_3.index t (0 : Fin 3); omega
    | ⟨1, _⟩ => show win0_1.index t (1 : Fin 3) * 2048 + 1 * (k0_off1 (grid0.coords t) (1 : Fin 3) + 1 * r.val) = win0_3.index t (1 : Fin 3) * 1024 + r.val; omega
    | ⟨2, _⟩ => show win0_1.index t (2 : Fin 3) * 64 + 1 * (k0_off1 (grid0.coords t) (2 : Fin 3) + 1 * f.val) = f.val; omega
  · unfold result
    have hb : (((cfg0.win 3).blk t).view.emb j) 0 = (⟨win0_3.index t (0 : Fin 3), by omega⟩ : Fin 8) :=
      Fin.ext (show win0_3.index t (0 : Fin 3) * 1 + 1 * (j 0).val = win0_3.index t (0 : Fin 3) by omega)
    have hn : (((cfg0.win 3).blk t).view.emb j) 1 = rowOf ⟨win0_3.index t (1 : Fin 3), by omega⟩ (j 1) :=
      Fin.ext (show win0_3.index t (1 : Fin 3) * 1024 + 1 * (j 1).val = win0_3.index t (1 : Fin 3) * 1024 + (j 1).val by omega)
    have ho : (((cfg0.win 3).blk t).view.emb j) 2 = j 2 :=
      Fin.ext (show win0_3.index t (2 : Fin 3) * 64 + 1 * (j 2).val = (j 2).val by omega)
    rw [hb, hn, ho]

/-- An index of the result array is in point `t`'s block iff each coordinate is in the block's range on its axis. -/
theorem mem_blk (t : Fin cfg0.N) (i : S8x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v0).slice (win0_3.rect t)).set ↔ _
  rw [View.set_slice_whole, Rect.mem_set_unit]
  exact Iff.rfl

/-- The sixteen blocks tile the result array (entry (b, n, o) lies in the block of point (b, n / 1024)), so after the run
    the array is `result`. -/
theorem final (c : Dev nD) : (dats m 0 c).arrAt 3 cfg0.N = result m c :=
  (dats m 0 c).arrAt_eq_of_cover 3 (result m c) (fun t _ => flushed_eq m c t) fun i => by
    have hi0 : (i 0).val < 8 := (i 0).isLt
    have hi1 : (i 1).val < 2048 := (i 1).isLt
    have hi2 : (i 2).val < 64 := (i 2).isLt
    obtain ⟨t, ht⟩ := idx_onto ⟨(i 0).val, hi0⟩ ⟨(i 1).val / 1024, by omega⟩
    have q0 : win0_3.index t (0 : Fin 3) = (i 0).val := congrFun ht 0
    have q1 : win0_3.index t (1 : Fin 3) = (i 1).val / 1024 := congrFun ht 1
    have q2 : win0_3.index t (2 : Fin 3) = 0 := congrFun ht 2
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 1024 ≤ (i 1).val ∧ (i 1).val < win0_3.index t (1 : Fin 3) * 1024 + 1024; omega
    | ⟨2, _⟩ => show win0_3.index t (2 : Fin 3) * 64 ≤ (i 2).val ∧ (i 2).val < win0_3.index t (2 : Fin 3) * 64 + 64; omega

/-- The kernel's run, read: the result array ends at `result`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Gcn.KValue

end
-- ==== Proof.lean ====
/-
  A graph-convolution layer with self loops and row normalisation, out = D^-1 (A + I) X W with D the degree matrix of
  A + I, on 8 graphs of 2048 nodes, 64 features in and 64 out: the kernel against its reference, over the extended reals.

  The reference normalises first: it divides every entry of A + I by its row's degree, multiplies the quotient matrix
  by X and that product by W. The kernel normalises last: per block of 1024 rows it forms A (X W), adds the rows of X W
  the identity would select, and divides by (row sum of A) + 1. Division by the degree is a row scaling, so it commutes
  with both products — over the reals, and where the degree is not zero. The precondition says exactly that: every input
  entry is finite, and every degree (the reference's own divisor) is nonzero; at a zero degree the reference divides
  by zero and the two arrangements part (the junk values of x / 0 differ after the products).

  The modules: GcnAlgebra (the two arrangements as functions of the argument arrays, and the law between them),
  GcnReference (the reference's result array is the normalise-first arrangement), GcnPre (what the precondition says),
  GcnKernelBody (the kernel's stored block as a value), GcnKernelValue (the sixteen blocks tile the result array, which is
  the normalise-last arrangement). The three frames are the generated ones; the ideal pass rewrote nothing.
-/
import proofs.«412337_j14216341750332_3_alg».proof.Defs
import proofs.«412337_j14216341750332_3_alg».proof.Proof.Gen.Kernel
import proofs.«412337_j14216341750332_3_alg».proof.Proof.Gen.Kernel.Skeleton
import proofs.«412337_j14216341750332_3_alg».proof.Proof.Gen.Kernel.Launch
import proofs.«412337_j14216341750332_3_alg».proof.Proof.Gen.Kernel.Points
import proofs.«412337_j14216341750332_3_alg».proof.Proof.Gen.Kernel.Frame
import proofs.«412337_j14216341750332_3_alg».proof.Proof.Gen.KernelIdeal
import proofs.«412337_j14216341750332_3_alg».proof.Proof.Gen.KernelIdeal.Skeleton
import proofs.«412337_j14216341750332_3_alg».proof.Proof.Gen.KernelIdeal.Launch
import proofs.«412337_j14216341750332_3_alg».proof.Proof.Gen.KernelIdeal.Points
import proofs.«412337_j14216341750332_3_alg».proof.Proof.Gen.KernelIdeal.Frame
import proofs.«412337_j14216341750332_3_alg».proof.Proof.Gen.ReferenceIdeal
import proofs.«412337_j14216341750332_3_alg».proof.Proof.Gen.KernelIdeal.Value
import proofs.«412337_j14216341750332_3_alg».proof.Proof.Gen.ReferenceIdeal.Run
import proofs.«412337_j14216341750332_3_alg».proof.Proof.Gen.ReferenceIdeal.Read
import proofs.«412337_j14216341750332_3_alg».proof.Proof.Gen.Pre_finite_inputs
import proofs.«412337_j14216341750332_3_alg».proof.Proof.GcnAlgebra
import proofs.«412337_j14216341750332_3_alg».proof.Proof.GcnReference
import proofs.«412337_j14216341750332_3_alg».proof.Proof.GcnPre
import proofs.«412337_j14216341750332_3_alg».proof.Proof.GcnKernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the normalise-last arrangement of its arguments, the reference's at the
    normalise-first arrangement of arguments that agree; under the precondition (finite entries, nonzero degrees) the two
    are one array, entry by entry. -/
theorem algebraic : Cert.algebraic_KernelIdeal_ReferenceIdeal := by
  intro m ρ m' ρ' hpre hagree
  refine ⟨fun c => Cert.Gcn.KValue.result m c, Cert.Gcn.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨hA, hX, hW, hdeg⟩ := Cert.Gcn.Pre.decode _ _ _ (hpre c)
  funext j
  obtain ⟨b, n, o, rfl⟩ : ∃ (b : Fin 8) (n : Fin 2048) (o : Fin 64), j = ValueIdx.ix3 b n o :=
    ⟨j 0, j 1, j 2, ValueIdx.eq_ix3 j⟩
  rw [Cert.Gcn.Ref.result_at]
  exact Cert.Gcn.rowFirstAt_eq_divLastAt _ _ _ hA hX hW b n o (hdeg b n)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
